-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S512x4096 : Shape := ⟨2, ![512, 4096]⟩
abbrev S32x4096 : Shape := ⟨2, ![32, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_

variable [Facts]

def fn {F : FTy → Type} [FloatOps F] (main_arg0 : FVec F S2048x4096 .f32) (main_arg1 : IVec S512x4096 32) (main_arg2 : FVec F S32x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  main_v8
-- ==== Kernel.lean ====
abbrev S2048x4096 : Shape := ⟨2, ![2048, 4096]⟩
abbrev S512x4096 : Shape := ⟨2, ![512, 4096]⟩
abbrev S32x4096 : Shape := ⟨2, ![32, 4096]⟩
abbrev S32x256 : Shape := ⟨2, ![32, 256]⟩
abbrev S2048x256 : Shape := ⟨2, ![2048, 256]⟩
abbrev S1x8x1 : Shape := ⟨3, ![1, 8, 1]⟩
abbrev S32x1x4096 : Shape := ⟨3, ![32, 1, 4096]⟩
abbrev S32x8x4096 : Shape := ⟨3, ![32, 8, 4096]⟩
abbrev S256x4096 : Shape := ⟨2, ![256, 4096]⟩
abbrev S256x32 : Shape := ⟨2, ![256, 32]⟩
abbrev S256x32x128 : Shape := ⟨3, ![256, 32, 128]⟩
abbrev S256x32x1 : Shape := ⟨3, ![256, 32, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S512x4096, .i32⟩
  | .hbm, ⟨2, _⟩ => ⟨S32x4096, .f32⟩
  | .hbm, ⟨3, _⟩ => ⟨S2048x4096, .bf16⟩
  | .hbm, ⟨4, _⟩ => ⟨S2048x4096, .f32⟩
  | .local _ .vmem, ⟨0, _⟩ => ⟨S2048x4096, .bf16⟩
  | .local _ .vmem, ⟨1, _⟩ => ⟨S32x4096, .i32⟩
  | .local _ .vmem, ⟨2, _⟩ => ⟨S32x4096, .i32⟩
  | .local _ .vmem, ⟨3, _⟩ => ⟨S32x256, .f32⟩
  | .local _ .vmem, ⟨4, _⟩ => ⟨S32x256, .f32⟩
  | .local _ .vmem, ⟨5, _⟩ => ⟨S2048x256, .f32⟩
  | .local _ .vmem, ⟨6, _⟩ => ⟨S2048x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  iota_S1x8x1_d1_w32 : S1x8x1.Iotas .tc 32 [1]
  shapeCasts_S32x4096_S32x1x4096 : S32x4096.ShapeCasts S32x1x4096
  broadcasts_S32x1x4096_S32x8x4096 : S32x1x4096.Broadcasts S32x8x4096
  broadcasts_S1x8x1_S32x8x4096 : S1x8x1.Broadcasts S32x8x4096
  shapeCasts_S32x8x4096_S256x4096 : S32x8x4096.ShapeCasts S256x4096
  inb_S32x256_S32x256_0_0 : ∀ a, (![0, 0] : Fin 2 → Nat) a + S32x256.size a ≤ S32x256.size a
  h_S32x256 : 0 < S32x256.numel
  transposes_S32x256_p1_0_S256x32 : S32x256.Transposes [1, 0] S256x32
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S2048x256_S2048x256_0_0 : ∀ a, (![0, 0] : Fin 2 → Nat) a + S2048x256.size a ≤ S2048x256.size a
  h_S2048x256 : 0 < S2048x256.numel
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S512x4096.size a
  hwx0_1 : ∀ i : grid0.Coords, EltTy.bits .i32 = 32 ∨ (Rect.block (s := S512x4096) S32x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x4096.size a
  hwx0_2 : ∀ i : grid0.Coords, EltTy.bits .f32 = 32 ∨ (Rect.block (s := S32x4096) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x4096.size a
  hwx0_3 : ∀ i : grid0.Coords, EltTy.bits .f32 = 32 ∨ (Rect.block (s := S2048x4096) S2048x256.size (cc0_transform_3 i) (hinb0_3 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v0) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S512x4096 : Shape := ⟨2, ![512, 4096]⟩
abbrev S32x4096 : Shape := ⟨2, ![32, 4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x128x4096 : Shape := ⟨3, ![32, 128, 4096]⟩

abbrev nBuf : Space → Nat
  | .hbm => 26
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S512x4096, .i32⟩
  | .hbm, ⟨2, _⟩ => ⟨S32x4096, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S512x1x4096, .i32⟩
  | .hbm, ⟨8, _⟩ => ⟨S1x8x1, .i32⟩
  | .hbm, ⟨9, _⟩ => ⟨S512x8x4096, .i32⟩
  | .hbm, ⟨10, _⟩ => ⟨S512x8x4096, .i32⟩
  | .hbm, ⟨11, _⟩ => ⟨S512x8x4096, .i32⟩
  | .hbm, ⟨12, _⟩ => ⟨S_, .i32⟩
  | .hbm, ⟨13, _⟩ => ⟨S512x8x4096, .i32⟩
  | .hbm, ⟨14, _⟩ => ⟨S512x8x4096, .i32⟩
  | .hbm, ⟨15, _⟩ => ⟨S4096x4096, .i32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S32x128x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S_S4096x4096 : S_.BroadcastsInDim S4096x4096 (![] : Fin 0 → Fin S4096x4096.rank)
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  transposes_S4096x4096_S4096x4096_1_0 : S4096x4096.Transposes [1, 0] S4096x4096
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Spec.lean ====
/-
  Int4 dequantisation followed by a matrix product, as one function of the three argument arrays.

  A packed word `b` holds eight 4-bit fields; field `r` is `(b >>ₛ 4r) & 15`, a number in 0..15, and the weight it
  stands for is that number minus 8. Output feature `n` takes field `n % 8` of row `n / 8` of the packed array, and the
  scale of input feature `k` is row `k / 128` of the scale array. The result is

      out[m, n] = Σ_k x[m, k] · ((field − 8) · scale[k / 128, n]).

  `dq` is this function for an array of `R` packed rows, `8R` output features and `C` scale columns read at a column
  offset; the whole-array function and the function of one 256-column block are its two instances.
-/
import Idealize.ShloMosaic.PureOps.Ideal
import Idealize.ShloMosaic.Lib.ValueIdx

noncomputable section

namespace Cert.Dequant

open Idealize.ShloMosaic Idealize.ShloMosaic.ValueIdx

/-! ## Fields of a packed word -/

/-- The shift amount of field `r`: the word `r · 4`. -/
def amt (r : Fin 8) : BitVec 32 := IntOp.muli (BitVec.ofNat 32 r.val) 4#32

/-- Every amount is below the word's width (at most 28). -/
theorem amt_lt : ∀ r : Fin 8, (amt r).toNat < 32 := by decide

/-- Below the width the host's arithmetic right shift and the vector unit's are the same shift: they differ only in
    what they return for an amount of 32 or more. -/
theorem shrsi_host_amt (b : BitVec 32) (r : Fin 8) : IntOp.shrsi .host b (amt r) = IntOp.shrsi .vector b (amt r) := by
  unfold IntOp.shrsi
  rw [if_pos (amt_lt r), if_pos (amt_lt r)]

/-- Field `r` of the packed word `b`. -/
def field (b : BitVec 32) (r : Fin 8) : BitVec 32 := IntOp.andi (IntOp.shrsi .vector b (amt r)) 15#32

/-- The weight field `r` of `b` stands for: the field as a number, minus 8. -/
def weight (b : BitVec 32) (r : Fin 8) : EReal := (((field b r).toInt : ℝ) : EReal) - ((8 : ℝ) : EReal)

/-! ## The two spellings of 8.0 -/

/-- The bf16 pattern `0x4100` denotes 8. -/
theorem eight_bf16 : Ideal.ofBits .bf16 0x4100#16 = ((8 : ℝ) : EReal) := by
  simp [Ideal.ofBits, Ideal.ieee, -EReal.coe_mul]; norm_num

/-- The f32 pattern `0x41000000` denotes 8. -/
theorem eight_f32 : Ideal.ofBits .f32 0x41000000#32 = ((8 : ℝ) : EReal) := by
  simp [Ideal.ofBits, Ideal.ieee, -EReal.coe_mul]; norm_num

/-! ## The function -/

/-- Output feature `n`'s packed row, field and, for input feature `k`, scale row. -/
abbrev rowOf {R : Nat} (n : Fin (8 * R)) : Fin R := ⟨n.val / 8, by have := n.isLt; omega⟩
abbrev fieldOf {R : Nat} (n : Fin (8 * R)) : Fin 8 := ⟨n.val % 8, by omega⟩
abbrev groupOf (k : Fin 4096) : Fin 32 := ⟨k.val / 128, by have := k.isLt; omega⟩

/-- The dequantised weight of output feature `n` and input feature `k`. -/
def wdq {R : Nat} (B : (⟨2, ![R, 4096]⟩ : Shape).Idx → BitVec 32) (s : (⟨2, ![32, 8 * R]⟩ : Shape).Idx → EReal)
    (n : Fin (8 * R)) (k : Fin 4096) : EReal :=
  weight (B (ix2 (rowOf n) k)) (fieldOf n) * s (ix2 (groupOf k) n)

/-- The product of the activations with the dequantised weights, contracted over the input features. -/
def dq {R : Nat} (x : (⟨2, ![2048, 4096]⟩ : Shape).Idx → EReal) (B : (⟨2, ![R, 4096]⟩ : Shape).Idx → BitVec 32)
    (s : (⟨2, ![32, 8 * R]⟩ : Shape).Idx → EReal) : (⟨2, ![2048, 8 * R]⟩ : Shape).Idx → EReal :=
  fun i => ∑ k : Fin 4096, x (ix2 (i 0) k) * wdq B s (i 1) k

end Cert.Dequant

end
-- ==== Proof.KernelPay.lean ====
/-
  What the kernel's body computes from its three loaded blocks, entry by entry.

  The body lays the packed block `[32, 4096]` out with a field axis, `[32, 8, 4096]`: entry `(a, r, k)` is field `r` of
  the word at `(a, k)`, turned into the weight `field − 8`. Merging the first two axes gives a `[256, 4096]` matrix whose
  row `q` is field `q % 8` of packed row `q / 8`. The scale block `[32, 256]` is transposed and laid along the 128 input
  features of each group, so the weight at `(q, k)` is multiplied by the scale at `(k / 128, q)`. The product with the
  activations contracts the input features: entry `(p, q)` of the result is `Σ_k x[p, k] · w[q, k]`, which is the block
  form of `dq`.
-/
import proofs.«417546_j62070867362464_3_alg».proof.Proof.Gen.KernelIdeal.Skeleton
import proofs.«417546_j62070867362464_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Dequant.KernelPay

open Idealize.ShloMosaic Idealize.ShloMosaic.ValueIdx Cert.KernelIdeal Cert.KernelIdeal.Gen Cert.Dequant

/-! ## The packed words and the shift amounts along the field axis -/

/-- Entry `(a, r, k)` of the packed block repeated along the field axis is the word at `(a, k)`. -/
theorem packed_read (v0 : IVec S32x4096 32) (h1 : S32x4096.ShapeCasts S32x1x4096) (h2 : S32x1x4096.Broadcasts S32x8x4096)
    (a : Fin 32) (r : Fin 8) (k : Fin 4096) :
    broadcastTo S32x8x4096 (shapeCast S32x1x4096 v0 h1) h2 (ix3 a r k) = v0 (ix2 a k) := by
  refine (broadcastTo_apply _ h2 (ix3 a r k) (ix3 a (0 : Fin 1) k) (fun b => match b with
    | ⟨0, _⟩ => by show a.val = if (32 : Nat) = 1 then 0 else a.val; rw [if_neg (by decide)]
    | ⟨1, _⟩ => by show 0 = if (1 : Nat) = 1 then 0 else r.val; rw [if_pos rfl]
    | ⟨2, _⟩ => by show k.val = if (4096 : Nat) = 1 then 0 else k.val; rw [if_neg (by decide)])).trans ?_
  refine shapeCast_apply v0 h1 (ix3 a (0 : Fin 1) k) (ix2 a k) ?_
  rw [Shape.rowMajor_val_two, Shape.rowMajor_val_three]
  show a.val * 4096 + k.val = (a.val * 1 + 0) * 4096 + k.val
  omega

/-- Entry `(a, r, k)` of the shift amounts is the word `r · 4`: the field axis's counter times four, repeated along
    the other two axes. -/
theorem amt_read (h3 : S1x8x1.Broadcasts S32x8x4096) (h4 : S1x8x1.Iotas .tc 32 [1]) (a : Fin 32) (r : Fin 8) (k : Fin 4096) :
    broadcastTo S32x8x4096 (muli (iota .tc S1x8x1 32 [1] h4) (broadcast S1x8x1 4#32)) h3 (ix3 a r k) = amt r := by
  refine (broadcastTo_apply _ h3 (ix3 a r k) (ix3 (0 : Fin 1) r (0 : Fin 1)) (fun b => match b with
    | ⟨0, _⟩ => by show 0 = if (1 : Nat) = 1 then 0 else a.val; rw [if_pos rfl]
    | ⟨1, _⟩ => by show r.val = if (8 : Nat) = 1 then 0 else r.val; rw [if_neg (by decide)]
    | ⟨2, _⟩ => by show 0 = if (1 : Nat) = 1 then 0 else k.val; rw [if_pos rfl])).trans ?_
  show IntOp.muli (iota .tc S1x8x1 32 [1] h4 (ix3 (0 : Fin 1) r (0 : Fin 1))) 4#32 = amt r
  rw [iota_single_apply]
  rfl

/-- Shifting by those amounts and masking with 15 reads the field. -/
theorem field_of_reads (A Bm : IVec S32x8x4096 32) (j : S32x8x4096.Idx) (w : BitVec 32) (r : Fin 8)
    (hA : A j = w) (hB : Bm j = amt r) : andi (shrsi A Bm) (broadcast S32x8x4096 15#32) j = field w r := by
  show IntOp.andi (IntOp.shrsi .vector (A j) (Bm j)) 15#32 = _
  rw [hA, hB]
  rfl

/-- Converting the field to a float and subtracting the constant 8.0 gives the weight. -/
theorem weight_of_field (N : IVec S32x8x4096 32) (j : S32x8x4096.Idx) (w : BitVec 32) (r : Fin 8) (hN : N j = field w r) :
    subf (sitofp .bf16 N) (broadcast S32x8x4096 (Scalar.ofBits (F := Ideal) .bf16 0x4100#16)) j = weight w r := by
  show (((N j).toInt : ℝ) : EReal) - Ideal.ofBits .bf16 0x4100#16 = _
  rw [hN, eight_bf16]
  rfl

/-! ## The weight matrix and the scales -/

/-- Input feature `k`'s position inside its group of 128. -/
abbrev laneOf (k : Fin 4096) : Fin 128 := ⟨k.val % 128, Nat.mod_lt _ (by decide)⟩

/-- Row `q` of the `[256, 4096]` weight matrix is field `q % 8` of packed row `q / 8`. -/
theorem merged_read (W3 : FVec Ideal S32x8x4096 .bf16) (h5 : S32x8x4096.ShapeCasts S256x4096) (q : Fin 256) (k : Fin 4096) :
    shapeCast S256x4096 W3 h5 (ix2 q k) = W3 (ix3 (rowOf (R := 32) q) (fieldOf (R := 32) q) k) := by
  refine shapeCast_apply W3 h5 (ix2 q k) (ix3 (rowOf (R := 32) q) (fieldOf (R := 32) q) k) ?_
  rw [Shape.rowMajor_val_three, Shape.rowMajor_val_two]
  show (q.val / 8 * 8 + q.val % 8) * 4096 + k.val = q.val * 4096 + k.val
  omega

/-- Entry `(q, g, l)` of the scale block, transposed and repeated along a group's 128 input features, is the scale
    of group `g` and output feature `q`. -/
theorem scale_read (v14 : FVec Ideal S32x256 .f32) (hb : FTy.bits .bf16 < FTy.bits .f32)
    (ht : S32x256.Transposes [1, 0] S256x32) (hc : S256x32.ShapeCasts S256x32x1) (hbr : S256x32x1.Broadcasts S256x32x128)
    (q : Fin 256) (g : Fin 32) (l : Fin 128) :
    broadcastTo S256x32x128 (shapeCast S256x32x1 (transpose S256x32 [1, 0] (truncf .bf16 v14 hb) ht) hc) hbr (ix3 q g l)
      = v14 (ix2 g q) := by
  refine (broadcastTo_apply _ hbr (ix3 q g l) (ix3 q g (0 : Fin 1)) (fun b => match b with
    | ⟨0, _⟩ => by show q.val = if (256 : Nat) = 1 then 0 else q.val; rw [if_neg (by decide)]
    | ⟨1, _⟩ => by show g.val = if (32 : Nat) = 1 then 0 else g.val; rw [if_neg (by decide)]
    | ⟨2, _⟩ => by show 0 = if (1 : Nat) = 1 then 0 else l.val; rw [if_pos rfl])).trans ?_
  refine (shapeCast_apply _ hc (ix3 q g (0 : Fin 1)) (ix2 q g) ?_).trans ?_
  · rw [Shape.rowMajor_val_two, Shape.rowMajor_val_three]
    show q.val * 32 + g.val = (q.val * 32 + g.val) * 1 + 0
    omega
  · exact transpose_ix2_apply (truncf .bf16 v14 hb) ht q g

/-- The scaled weight matrix at `(q, k)`: the weight there times the scale of `k`'s group. The matrix is split into
    groups of 128 input features, multiplied by the scales, and merged back. -/
theorem scaled_read (W : FVec Ideal S256x4096 .bf16) (SC : FVec Ideal S256x32x128 .bf16)
    (h6 : S256x4096.ShapeCasts S256x32x128) (h7 : S256x32x128.ShapeCasts S256x4096) (q : Fin 256) (k : Fin 4096) (w s : EReal)
    (hW : W (ix2 q k) = w) (hS : SC (ix3 q (groupOf k) (laneOf k)) = s) :
    shapeCast S256x4096 (mulf (shapeCast S256x32x128 W h6) SC) h7 (ix2 q k) = w * s := by
  refine (shapeCast_apply _ h7 (ix2 q k) (ix3 q (groupOf k) (laneOf k)) ?_).trans ?_
  · rw [Shape.rowMajor_val_three, Shape.rowMajor_val_two]
    show (q.val * 32 + k.val / 128) * 128 + k.val % 128 = q.val * 4096 + k.val
    omega
  · show shapeCast S256x32x128 W h6 (ix3 q (groupOf k) (laneOf k)) * SC (ix3 q (groupOf k) (laneOf k)) = w * s
    rw [hS]
    refine congrArg (· * s) ((shapeCast_apply W h6 (ix3 q (groupOf k) (laneOf k)) (ix2 q k) ?_).trans hW)
    rw [Shape.rowMajor_val_two, Shape.rowMajor_val_three]
    show q.val * 4096 + k.val = (q.val * 32 + k.val / 128) * 128 + k.val % 128
    omega

/-! ## The matrix product's operand indices -/

theorem lhs_ax0 (i : S2048x256.Idx) (c : dot_S2048x4096_S256x4096_S2048x256_1_1_0_0_n_n.contr.Idx) :
    (dot_S2048x4096_S256x4096_S2048x256_1_1_0_0_n_n.lhsIdx i c 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
theorem lhs_ax1 (i : S2048x256.Idx) (c : dot_S2048x4096_S256x4096_S2048x256_1_1_0_0_n_n.contr.Idx) :
    (dot_S2048x4096_S256x4096_S2048x256_1_1_0_0_n_n.lhsIdx i c 1).val = (c ⟨0, by decide⟩).val :=
  dot_S2048x4096_S256x4096_S2048x256_1_1_0_0_n_n.lhsIdx_val_of_single rfl i c
theorem rhs_ax0 (i : S2048x256.Idx) (c : dot_S2048x4096_S256x4096_S2048x256_1_1_0_0_n_n.contr.Idx) :
    (dot_S2048x4096_S256x4096_S2048x256_1_1_0_0_n_n.rhsIdx i c 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl
theorem rhs_ax1 (i : S2048x256.Idx) (c : dot_S2048x4096_S256x4096_S2048x256_1_1_0_0_n_n.contr.Idx) :
    (dot_S2048x4096_S256x4096_S2048x256_1_1_0_0_n_n.rhsIdx i c 1).val = (c ⟨0, by decide⟩).val :=
  dot_S2048x4096_S256x4096_S2048x256_1_1_0_0_n_n.rhsIdx_val_of_single rfl i c

/-! ## The payload -/

/-- Entry `(p, q)` of what the body stores is the block form of `dq`: the activations' row `p` against the scaled
    weights' row `q`, summed over the input features. -/
theorem pay_apply (v0 : IVec S32x4096 32) (v14 : FVec Ideal S32x256 .f32) (v22 : FVec Ideal S2048x4096 .bf16)
    (p : Fin 2048) (q : Fin 256) :
    k0_pay1 (F := Ideal) v0 v14 v22 (ix2 p q) = dq (R := 32) v22 v0 v14 (ix2 p q) := by
  unfold k0_pay1
  dsimp only
  show FloatOps.matmul dot_S2048x4096_S256x4096_S2048x256_1_1_0_0_n_n none _ _ (constant S2048x256 .f32 0x00000000#32) (ix2 p q) = _
  refine (Ideal.matmul_constant_zero_apply dot_S2048x4096_S256x4096_S2048x256_1_1_0_0_n_n none _ _ (ix2 p q)).trans ?_
  rw [← Equiv.sum_comp (contrEquiv1 dot_S2048x4096_S256x4096_S2048x256_1_1_0_0_n_n 4096 rfl rfl).symm]
  unfold dq
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 p q) ((contrEquiv1 dot_S2048x4096_S256x4096_S2048x256_1_1_0_0_n_n 4096 rfl rfl).symm k) = ix2 p k := funext fun a => Fin.ext (by
    match a with
    | ⟨0, _⟩ => exact lhs_ax0 _ _
    | ⟨1, _⟩ => exact (lhs_ax1 _ _).trans hk)
  have er : dot_S2048x4096_S256x4096_S2048x256_1_1_0_0_n_n.rhsIdx (ix2 p q) ((contrEquiv1 dot_S2048x4096_S256x4096_S2048x256_1_1_0_0_n_n 4096 rfl rfl).symm k) = ix2 q k := funext fun a => Fin.ext (by
    match a with
    | ⟨0, _⟩ => exact rhs_ax0 _ _
    | ⟨1, _⟩ => exact (rhs_ax1 _ _).trans hk)
  rw [el, er, shapeCast_self]
  refine congrArg (v22 (ix2 p k) * ·) ?_
  exact scaled_read _ _ _ _ q k _ _
    ((merged_read _ _ q k).trans (weight_of_field _ _ _ _ (field_of_reads _ _ _ _ _ (packed_read v0 _ _ _ _ k) (amt_read _ _ _ _ k))))
    (scale_read v14 _ _ _ _ q (groupOf k) (laneOf k))

end Cert.Dequant.KernelPay

end
-- ==== Proof.KernelValue.lean ====
/-
  From the blocks to the whole result array.

  The grid has 16 points. Point `t` works on the whole activations (the array after the host's change of float format,
  which is the identity on values), on packed rows `32t … 32t + 31`, on scale columns `256t … 256t + 255`, and writes
  result columns `256t … 256t + 255`. Output feature `256t + q` has packed row `32t + q / 8` and field `q % 8`, so the
  block form of `dq` on point `t`'s blocks is block `t` of `dq` on the whole arrays. The 16 column blocks tile the result
  array, so after the run it holds `dq` of the three arguments.
-/
import proofs.«417546_j62070867362464_3_alg».proof.Proof.Gen.KernelIdeal.Value
import proofs.«417546_j62070867362464_3_alg».proof.Proof.KernelPay
import Idealize.ShloMosaic.Lib.Pipeline.Value
import Idealize.ShloMosaic.Lib.StableHlo.Run
import Idealize.ShloMosaic.Lib.Tactic

noncomputable section

namespace Cert.Dequant.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Dequant

variable (m : (ℓ : Loc nD τ sig) → Buf (Elt Ideal) ℓ) (ρ : Dev nD → PrngReg)

theorem hz : (![0, 0] : Fin 2 → Nat) = fun _ => 0 := funext fun a => by fin_cases a <;> rfl

/-- The block index of each window at grid point `t`: the activations' is always `(0, 0)`, the packed rows' is
    `(t, 0)`, the scales' and the result's are `(0, t)`. Decided over the 16 points. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-! ## The arrays -/

/-- The three argument arrays on device `c`, and the function of them the result array ends holding. -/
abbrev xarr (c : Dev nD) : (⟨2, ![2048, 4096]⟩ : Shape).Idx → EReal := m ((c : Thread nD τ).loc main_arg0)
abbrev barr (c : Dev nD) : (⟨2, ![512, 4096]⟩ : Shape).Idx → BitVec 32 := m ((c : Thread nD τ).loc main_arg1)
abbrev sarr (c : Dev nD) : (⟨2, ![32, 4096]⟩ : Shape).Idx → EReal := m ((c : Thread nD τ).loc main_arg2)
abbrev result (c : Dev nD) : (⟨2, ![2048, 4096]⟩ : Shape).Idx → EReal := dq (R := 512) (xarr m c) (barr m c) (sarr m c)

/-- The array the first window stages is the host's change of float format of the activations. -/
theorem V_main_v0 (c : Dev nD) :
    (V m c main_v0 : S2048x4096.Idx → EReal) = truncf (F := Ideal) .bf16 (m ((c : Thread nD τ).loc main_arg0)) Facts₀.bitsLt_bf16_f32 := by
  dsimp only [V, hostOps0]
  after_results

/-! ## The blocks -/

/-- The activations' block at any point is the whole activations array. -/
theorem xblk_apply (c : Dev nD) (t : Fin cfg0.N) (p : Fin 2048) (k : Fin 4096) :
    (iblk m c 0 t : S2048x4096.Idx → EReal) (ix2 p k) = xarr m c (ix2 p k) := by
  obtain ⟨e0, e1, -⟩ := idx_facts t
  unfold iblk
  rw [View.read_apply]
  show (V m c main_v0 : S2048x4096.Idx → EReal) _ = _
  rw [V_main_v0]
  show xarr m c _ = xarr m c _
  congr 1
  funext a
  apply Fin.ext
  match a with
  | ⟨0, _⟩ => show win0_0.index t (0 : Fin 2) * 2048 + 1 * p.val = p.val; rw [e0]; omega
  | ⟨1, _⟩ => show win0_0.index t (1 : Fin 2) * 4096 + 1 * k.val = k.val; rw [e1]; omega

/-- The packed block at point `t` is rows `32t … 32t + 31` of the packed array. -/
theorem bblk_apply (c : Dev nD) (t : Fin cfg0.N) (a : Fin 32) (k : Fin 4096) (a' : Fin 512) (ha : a'.val = 32 * t.val + a.val) :
    (iblk m c 1 t : S32x4096.Idx → BitVec 32) (ix2 a k) = barr m c (ix2 a' k) := by
  obtain ⟨-, -, e2, e3, -⟩ := idx_facts t
  unfold iblk
  rw [View.read_apply]
  show V m c main_arg1 _ = _
  rw [V_main_arg1]
  show barr m c _ = barr m c _
  congr 1
  funext b
  apply Fin.ext
  match b with
  | ⟨0, _⟩ => show win0_1.index t (0 : Fin 2) * 32 + 1 * a.val = a'.val; rw [e2, ha]; omega
  | ⟨1, _⟩ => show win0_1.index t (1 : Fin 2) * 4096 + 1 * k.val = k.val; rw [e3]; omega

/-- The scale block at point `t` is columns `256t … 256t + 255` of the scale array. -/
theorem sblk_apply (c : Dev nD) (t : Fin cfg0.N) (g : Fin 32) (q : Fin 256) (n : Fin 4096) (hn : n.val = 256 * t.val + q.val) :
    (iblk m c 2 t : S32x256.Idx → EReal) (ix2 g q) = sarr m c (ix2 g n) := by
  obtain ⟨-, -, -, -, e4, e5, -⟩ := idx_facts t
  unfold iblk
  rw [View.read_apply]
  show V m c main_arg2 _ = _
  rw [V_main_arg2]
  show sarr m c _ = sarr m c _
  congr 1
  funext b
  apply Fin.ext
  match b with
  | ⟨0, _⟩ => show win0_2.index t (0 : Fin 2) * 32 + 1 * g.val = g.val; rw [e4]; omega
  | ⟨1, _⟩ => show win0_2.index t (1 : Fin 2) * 256 + 1 * q.val = n.val; rw [e5, hn]; omega

/-- The block form of `dq` on point `t`'s blocks, at `(p, q)`, is `dq` of the whole arrays at `(p, 256t + q)`. -/
theorem dq_blocks (c : Dev nD) (t : Fin cfg0.N) (p : Fin 2048) (q : Fin 256) (n : Fin 4096) (hn : n.val = 256 * t.val + q.val) :
    dq (R := 32) (iblk m c 0 t) (iblk m c 1 t) (iblk m c 2 t) (ix2 p q) = result m c (ix2 p n) := by
  have hf : fieldOf (R := 32) q = fieldOf (R := 512) n := Fin.ext (by show q.val % 8 = n.val % 8; omega)
  show dq (R := 32) _ _ _ (ix2 p q) = dq (R := 512) (xarr m c) (barr m c) (sarr m c) (ix2 p n)
  unfold dq
  refine Finset.sum_congr rfl fun k _ => ?_
  refine congrArg₂ (· * ·) (xblk_apply m c t p k) ?_
  unfold wdq
  exact congrArg₂ (· * ·)
    (congrArg₂ weight
      (bblk_apply m c t (rowOf (R := 32) q) k (rowOf (R := 512) n) (by show n.val / 8 = 32 * t.val + q.val / 8; omega)) hf)
    (sblk_apply m c t (groupOf k) q n hn)

/-! ## What a point writes back, the cover, and the run -/

/-- What point `t` writes back is block `t` of the result function. -/
theorem flushed_eq (c : Dev nD) (t : Fin cfg0.N) :
    (dats m 0 c).flushed 3 t = ((cfg0.win 3).blk t).view.read (Elt Ideal) (result m c) := by
  obtain ⟨-, -, -, -, -, -, e6, e7⟩ := idx_facts t
  have hN : cfg0.N = 16 := N_0
  have ht : t.val < 16 := by have := t.isLt; omega
  rw [Value.flushed3]
  unfold out0_3
  rw [View.canon_unit_zero hz]
  simp only [View.ld_unit_zero (S := S32x4096) hz, View.ld_unit_zero (S := S32x256) hz, View.ld_unit_zero (S := S2048x4096) hz]
  funext j
  rw [View.read_apply]
  obtain ⟨p, q, rfl⟩ : ∃ (p : Fin 2048) (q : Fin 256), j = ix2 p q := ⟨j 0, j 1, eq_ix2 j⟩
  have hq := q.isLt
  have hemb : ((cfg0.win 3).blk t).view.emb (ix2 p q) = (ix2 p (⟨256 * t.val + q.val, by omega⟩ : Fin 4096) : S2048x4096.Idx) := by
    funext a
    apply Fin.ext
    match a with
    | ⟨0, _⟩ => show win0_3.index t (0 : Fin 2) * 2048 + 1 * p.val = p.val; rw [e6]; omega
    | ⟨1, _⟩ => show win0_3.index t (1 : Fin 2) * 256 + 1 * q.val = 256 * t.val + q.val; rw [e7]; omega
  rw [hemb]
  show k0_pay1 (F := Ideal) (iblk m c 1 t) (iblk m c 2 t) (iblk m c 0 t) (ix2 p q) = _
  exact (KernelPay.pay_apply _ _ _ p q).trans (dq_blocks m c t p q _ rfl)

/-- An index of the result array is in point `t`'s block iff each coordinate is in the block's range on its axis. -/
theorem mem_blk (t : Fin cfg0.N) (i : S2048x4096.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v1).slice (win0_3.rect t)).set ↔ _
  rw [View.set_slice_whole, Rect.mem_set_unit]
  exact Iff.rfl

/-- Column `n` of the result array lies in the block of point `n / 256`: the 16 column blocks tile the array. -/
theorem cover (i : S2048x4096.Idx) : ∃ t : Fin cfg0.N, (cfg0.win 3).flush t = true ∧ i ∈ ((cfg0.win 3).blk t).view.set := by
  have h0 : (i 0).val < 2048 := (i 0).isLt
  have h1 : (i 1).val < 4096 := (i 1).isLt
  have hN : cfg0.N = 16 := N_0
  obtain ⟨t, htv⟩ : ∃ t : Fin cfg0.N, t.val = (i 1).val / 256 := ⟨⟨(i 1).val / 256, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; rw [e6]; omega
  | ⟨1, _⟩ => show win0_3.index t (1 : Fin 2) * 256 ≤ (i 1).val ∧ (i 1).val < win0_3.index t (1 : Fin 2) * 256 + 256; rw [e7, htv]; omega

/-- After the run the result array holds the result function of the arguments. -/
theorem final (c : Dev nD) : (dats m 0 c).arrAt 3 cfg0.N = result m c :=
  (dats m 0 c).arrAt_eq_of_cover 3 (result m c) (fun t _ => flushed_eq m c t) cover

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.KernelIdeal.Value.run_blocks m ρ)

end Cert.Dequant.KernelValue

end
-- ==== Proof.RefValue.lean ====
/-
  The reference's result, entry by entry, is `dq` of its three arguments.

  The reference unpacks the whole packed array at once: `[512, 8, 4096]` fields, merged to `[4096, 4096]` weights (row
  `n` is field `n % 8` of packed row `n / 8`), minus 8; it repeats each scale row 128 times and transposes, so the scale
  at `(n, k)` is the scale array's entry `(k / 128, n)`; it multiplies the two, transposes, and contracts the activations'
  columns with the rows of that transpose. Its shift is the host's, which below the word's width is the same shift as
  the vector unit's.
-/
import proofs.«417546_j62070867362464_3_alg».proof.Proof.Gen.ReferenceIdeal.Read
import proofs.«417546_j62070867362464_3_alg».proof.Proof.Spec
import Idealize.ShloMosaic.Lib.ValueIdx

noncomputable section

namespace Cert.Dequant.RefValue

open Idealize.ShloMosaic Idealize.ShloMosaic.ValueIdx Cert.ReferenceIdeal Cert.ReferenceIdeal.Read Cert.Dequant

/-- Entry `(a, r, k)` of the unpacked fields is field `r` of the word at `(a, k)`. -/
theorem fields_at (x1 : (⟨S512x4096, .i32⟩ : BufTy).Contents (Elt Ideal)) (a : Fin 512) (r : Fin 8) (k : Fin 4096) :
    val_main_v9 (F := Ideal) x1 (ix3 a r k) = field (x1 (ix2 a k)) r := by
  rw [val_main_v9_apply, val_main_v7_apply, val_main_v5_apply, val_main_v3_apply, val_main_v6_apply, val_main_v4_apply,
    val_main_v2_apply, val_main_v0_apply, val_main_v1_apply, val_main_c_apply, val_main_v8_apply, val_main_c_0_apply]
  have e1 : idx_main_v3 (idx_main_v5 (ix3 a r k)) = ix2 a k :=
    funext fun b => by match b with | ⟨0, _⟩ => rfl | ⟨1, _⟩ => rfl
  rw [e1]
  show IntOp.andi (IntOp.shrsi .host (x1 (ix2 a k)) (amt r)) 15#32 = field (x1 (ix2 a k)) r
  rw [shrsi_host_amt]
  rfl

/-- Entry `(n, k)` of the weights is the weight of field `n % 8` of packed row `n / 8`. -/
theorem weights_at (x1 : (⟨S512x4096, .i32⟩ : BufTy).Contents (Elt Ideal)) (n k : Fin 4096) :
    val_main_v13 (F := Ideal) x1 (ix2 n k) = weight (x1 (ix2 (rowOf (R := 512) n) k)) (fieldOf (R := 512) n) := by
  rw [val_main_v13_apply, val_main_v11_apply, val_main_v10_apply, val_main_v12_apply, val_main_cst_apply]
  have e : idx_main_v10 (ix2 n k) = ix3 (rowOf (R := 512) n) (fieldOf (R := 512) n) k := by
    have hn := n.isLt
    have hk := k.isLt
    funext b
    apply Fin.ext
    match b with
    | ⟨0, _⟩ => show (n.val * 4096 + k.val) / 32768 = n.val / 8; omega
    | ⟨1, _⟩ => show (n.val * 4096 + k.val) / 4096 % 8 = n.val % 8; omega
    | ⟨2, _⟩ => show (n.val * 4096 + k.val) % 4096 = k.val; omega
  rw [e, fields_at]
  show (((field (x1 (ix2 (rowOf (R := 512) n) k)) (fieldOf (R := 512) n)).toInt : ℝ) : EReal) - Ideal.ofBits .f32 0x41000000#32 = _
  rw [eight_f32]
  rfl

/-- Entry `(n, k)` of the repeated and transposed scales is the scale of `k`'s group and output feature `n`. -/
theorem scales_at (x2 : (⟨S32x4096, .f32⟩ : BufTy).Contents (Elt Ideal)) (n k : Fin 4096) :
    val_main_v16 (F := Ideal) x2 (ix2 n k) = x2 (ix2 (groupOf k) n) := by
  rw [val_main_v16_apply, val_main_v15_apply, val_main_v14_apply]
  have e : idx_main_v14 (idx_main_v15 (idx_main_v16 (ix2 n k))) = ix2 (groupOf k) n := by
    have hn := n.isLt
    have hk := k.isLt
    funext b
    apply Fin.ext
    match b with
    | ⟨0, _⟩ => show (k.val * 4096 + n.val) / 524288 = k.val / 128; omega
    | ⟨1, _⟩ => show (k.val * 4096 + n.val) % 4096 = n.val; omega
  rw [e]

/-- The reference's result at `(p, n)`. -/
theorem result_at (x0 : (⟨S2048x4096, .f32⟩ : BufTy).Contents (Elt Ideal)) (x1 : (⟨S512x4096, .i32⟩ : BufTy).Contents (Elt Ideal))
    (x2 : (⟨S32x4096, .f32⟩ : BufTy).Contents (Elt Ideal)) (p : Fin 2048) (n : Fin 4096) :
    val_main_v19 (F := Ideal) x0 x1 x2 (ix2 p n) = dq (R := 512) x0 x1 x2 (ix2 p n) := by
  rw [val_main_v19_apply]
  unfold dq
  refine Finset.sum_congr rfl fun k _ => ?_
  have el : lidx_main_v19 (ix2 p n) k = ix2 p k :=
    funext fun a => by match a with | ⟨0, _⟩ => rfl | ⟨1, _⟩ => rfl
  have er : idx_main_v18 (ridx_main_v19 (ix2 p n) k) = ix2 n k :=
    funext fun a => by match a with | ⟨0, _⟩ => rfl | ⟨1, _⟩ => rfl
  rw [el, val_main_v18_apply, er, val_main_v17_apply, weights_at, scales_at]
  rfl

/-- The reference's result is `dq` of its arguments. -/
theorem result_eq (x0 : (⟨S2048x4096, .f32⟩ : BufTy).Contents (Elt Ideal)) (x1 : (⟨S512x4096, .i32⟩ : BufTy).Contents (Elt Ideal))
    (x2 : (⟨S32x4096, .f32⟩ : BufTy).Contents (Elt Ideal)) :
    val_main_v19 (F := Ideal) x0 x1 x2 = dq (R := 512) x0 x1 x2 :=
  funext fun i => by
    obtain ⟨p, n, rfl⟩ : ∃ (p : Fin 2048) (n : Fin 4096), i = ix2 p n := ⟨i 0, i 1, eq_ix2 i⟩
    exact result_at x0 x1 x2 p n

end Cert.Dequant.RefValue

end
-- ==== Proof.lean ====
/-
  Int4-dequantising matrix product: the fused kernel against its jnp reference, over the extended reals.

  Both programs compute, for activations `x` [2048, 4096], packed weights `B` [512, 4096] (eight 4-bit fields a word)
  and scales `s` [32, 4096],

      out[m, n] = Σ_k x[m, k] · ((field (n % 8) of B[n / 8, k] − 8) · s[k / 128, n])        (Proof/Spec.lean, `dq`).

  The kernel tiles the output features into 16 blocks of 256 and does its dequantising arithmetic in bf16; at the
  ideal values a change of float format is the identity, the constant 8.0 is 8 in either format, and the product
  accumulated into a zero splat is the plain sum, so each block is a block of `dq` (Proof/KernelPay.lean) and the
  blocks tile the result (Proof/KernelValue.lean). The reference unpacks, scales and contracts the whole arrays at
  once, which is `dq` entry by entry (Proof/RefValue.lean). The factors are multiplied in the same order on both sides
  and the sums run over the same index in the same order, so no law of arithmetic beyond `0 + a = a` is used and the
  finiteness of the inputs is never opened.
-/
import proofs.«417546_j62070867362464_3_alg».proof.Defs
import proofs.«417546_j62070867362464_3_alg».proof.Proof.Gen.Kernel
import proofs.«417546_j62070867362464_3_alg».proof.Proof.Gen.Kernel.Skeleton
import proofs.«417546_j62070867362464_3_alg».proof.Proof.Gen.Kernel.Launch
import proofs.«417546_j62070867362464_3_alg».proof.Proof.Gen.Kernel.Points
import proofs.«417546_j62070867362464_3_alg».proof.Proof.Gen.Kernel.Frame
import proofs.«417546_j62070867362464_3_alg».proof.Proof.Gen.KernelIdeal
import proofs.«417546_j62070867362464_3_alg».proof.Proof.Gen.KernelIdeal.Skeleton
import proofs.«417546_j62070867362464_3_alg».proof.Proof.Gen.KernelIdeal.Launch
import proofs.«417546_j62070867362464_3_alg».proof.Proof.Gen.KernelIdeal.Points
import proofs.«417546_j62070867362464_3_alg».proof.Proof.Gen.KernelIdeal.Frame
import proofs.«417546_j62070867362464_3_alg».proof.Proof.Gen.ReferenceIdeal
import proofs.«417546_j62070867362464_3_alg».proof.Proof.Gen.Pre_finite_inputs
import proofs.«417546_j62070867362464_3_alg».proof.Proof.Gen.KernelIdeal.Value
import proofs.«417546_j62070867362464_3_alg».proof.Proof.Gen.ReferenceIdeal.Run
import proofs.«417546_j62070867362464_3_alg».proof.Proof.Gen.ReferenceIdeal.Read
import proofs.«417546_j62070867362464_3_alg».proof.Proof.KernelValue
import proofs.«417546_j62070867362464_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the result array at `dq` of the arguments:
    the kernel block by block, the reference entry by entry. -/
theorem algebraic : Cert.algebraic_KernelIdeal_ReferenceIdeal := by
  intro m ρ m' ρ' _ hagree
  refine ⟨fun c => Cert.Dequant.KernelValue.result m c, Cert.Dequant.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  exact Cert.Dequant.RefValue.result_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
